-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x27 : Shape := ⟨2, ![100000, 27]⟩
abbrev S2x3200000 : Shape := ⟨2, ![2, 3200000]⟩
abbrev S100000x12 : Shape := ⟨2, ![100000, 12]⟩
abbrev S64x27 : Shape := ⟨2, ![64, 27]⟩
abbrev S64 : Shape := ⟨1, ![64]⟩
abbrev S64x64 : Shape := ⟨2, ![64, 64]⟩
abbrev S64x12 : Shape := ⟨2, ![64, 12]⟩
abbrev S1x64 : Shape := ⟨2, ![1, 64]⟩
abbrev S1 : Shape := ⟨1, ![1]⟩
abbrev S_ : Shape := ⟨0, ![]⟩

class Facts : Prop where
  bcast_S_S100000x27 : S_.BroadcastsInDim S100000x27 (![] : Fin 0 → Fin S100000x27.rank)
  reducesTo_S100000x27_S_d0_1 : S100000x27.ReducesTo [0, 1] S_
  h_S_ : 0 < S_.numel
  bcast_S_S100000x12 : S_.BroadcastsInDim S100000x12 (![] : Fin 0 → Fin S100000x12.rank)
  reducesTo_S100000x12_S_d0_1 : S100000x12.ReducesTo [0, 1] S_
  bcast_S_S64x27 : S_.BroadcastsInDim S64x27 (![] : Fin 0 → Fin S64x27.rank)
  reducesTo_S64x27_S_d0_1 : S64x27.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x12 : S_.BroadcastsInDim S64x12 (![] : Fin 0 → Fin S64x12.rank)
  reducesTo_S64x12_S_d0_1 : S64x12.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S1x64 .f32) (main_arg14 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x64 .f32 := Host.absf main_arg13
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S64x64 .f32) (main_arg9 : FVec F S64x12 .f32) (main_arg10 : FVec F S64 .f32) (main_arg11 : FVec F S64x64 .f32) (main_arg12 : FVec F S64 .f32) (main_arg13 : FVec F S1x64 .f32) (main_arg14 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x12 .f32 := Host.absf main_arg9
  let main_cst_14 : FVec F S_ .f32 := constant S_ .f32 0x7F800000#32
  let main_v40 : FVec F S64x12 .f32 := broadcastInDim S64x12 ![] bcast_S_S64x12 main_cst_14
  let main_v41 : IVec S64x12 1 := cmpf .olt main_v39 main_v40
  let main_c_15 : IVec S_ 1 := constantI S_ 1 1#1
  let main_v42 : IVec S_ 1 := (fun x v => Host.reduce IntOp.andi x v reducesTo_S64x12_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x27 .f32) (main_arg6 : FVec F S64x64 .f32) (main_arg7 : FVec F S64 .f32) (main_arg8 : FVec F S64x64 .f32) (main_arg9 : FVec F S64x12 .f32) (main_arg10 : FVec F S64 .f32) (main_arg11 : FVec F S64x64 .f32) (main_arg12 : FVec F S64 .f32) (main_arg13 : FVec F S1x64 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x27 .f32 := Host.absf main_arg5
  let main_cst_6 : FVec F S_ .f32 := constant S_ .f32 0x7F800000#32
  let main_v20 : FVec F S64x27 .f32 := broadcastInDim S64x27 ![] bcast_S_S64x27 main_cst_6
  let main_v21 : IVec S64x27 1 := cmpf .olt main_v19 main_v20
  let main_c_7 : IVec S_ 1 := constantI S_ 1 1#1
  let main_v22 : IVec S_ 1 := (fun x v => Host.reduce IntOp.andi x v reducesTo_S64x27_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x27 .f32) (main_arg1 : IVec S2x3200000 32) (main_arg2 : FVec F S100000x12 .f32) (main_arg3 : FVec F S64x27 .f32) (main_arg4 : FVec F S64 .f32) (main_arg5 : FVec F S64x27 .f32) (main_arg6 : FVec F S64x64 .f32) (main_arg7 : FVec F S64 .f32) (main_arg8 : FVec F S64x64 .f32) (main_arg9 : FVec F S64x12 .f32) (main_arg10 : FVec F S64 .f32) (main_arg11 : FVec F S64x64 .f32) (main_arg12 : FVec F S64 .f32) (main_arg13 : FVec F S1x64 .f32) (main_arg14 : FVec F S1 .f32) : IVec S_ 1 :=
  let main_v0 : FVec F S100000x27 .f32 := Host.absf main_arg0
  let main_cst : FVec F S_ .f32 := constant S_ .f32 0x7F800000#32
  let main_v1 : FVec F S100000x27 .f32 := broadcastInDim S100000x27 ![] bcast_S_S100000x27 main_cst
  let main_v2 : IVec S100000x27 1 := cmpf .olt main_v0 main_v1
  let main_c : IVec S_ 1 := constantI S_ 1 1#1
  let main_v3 : IVec S_ 1 := (fun x v => Host.reduce IntOp.andi x v reducesTo_S100000x27_S_d0_1 h_S_) main_v2 main_c
  let main_v4 : FVec F S100000x12 .f32 := Host.absf main_arg2
  let main_cst_0 : FVec F S_ .f32 := constant S_ .f32 0x7F800000#32
  let main_v5 : FVec F S100000x12 .f32 := broadcastInDim S100000x12 ![] bcast_S_S100000x12 main_cst_0
  let main_v6 : IVec S100000x12 1 := cmpf .olt main_v4 main_v5
  let main_c_1 : IVec S_ 1 := constantI S_ 1 1#1
  let main_v7 : IVec S_ 1 := (fun x v => Host.reduce IntOp.andi x v reducesTo_S100000x12_S_d0_1 h_S_) main_v6 main_c_1
  let main_v8 : IVec S_ 1 := andi main_v3 main_v7
  let main_v9 : FVec F S64x27 .f32 := Host.absf main_arg3
  let main_cst_2 : FVec F S_ .f32 := constant S_ .f32 0x7F800000#32
  let main_v10 : FVec F S64x27 .f32 := broadcastInDim S64x27 ![] bcast_S_S64x27 main_cst_2
  let main_v11 : IVec S64x27 1 := cmpf .olt main_v9 main_v10
  let main_c_3 : IVec S_ 1 := constantI S_ 1 1#1
  let main_v12 : IVec S_ 1 := (fun x v => Host.reduce IntOp.andi x v reducesTo_S64x27_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x27 : Shape := ⟨2, ![100000, 27]⟩
abbrev S2x3200000 : Shape := ⟨2, ![2, 3200000]⟩
abbrev S100000x12 : Shape := ⟨2, ![100000, 12]⟩
abbrev S64x27 : Shape := ⟨2, ![64, 27]⟩
abbrev S64 : Shape := ⟨1, ![64]⟩
abbrev S64x64 : Shape := ⟨2, ![64, 64]⟩
abbrev S64x12 : Shape := ⟨2, ![64, 12]⟩
abbrev S1x64 : Shape := ⟨2, ![1, 64]⟩
abbrev S1 : Shape := ⟨1, ![1]⟩
abbrev S1x100000 : Shape := ⟨2, ![1, 100000]⟩
abbrev S12800x12 : Shape := ⟨2, ![12800, 12]⟩
abbrev S1x12800 : Shape := ⟨2, ![1, 12800]⟩
abbrev S12x12800 : Shape := ⟨2, ![12, 12800]⟩
abbrev S64x12800 : Shape := ⟨2, ![64, 12800]⟩
abbrev S64x1 : Shape := ⟨2, ![64, 1]⟩
abbrev S1x1 : Shape := ⟨2, ![1, 1]⟩
abbrev S100000x1 : Shape := ⟨2, ![100000, 1]⟩

abbrev nBuf : Space → Nat
  | .hbm => 20
  | .vmem => 10
  | .smem => 0
  | _ => 0

abbrev bufTy : (tb : Table) → Fin (tcTables nBuf tb) → BufTy
  | .hbm, ⟨0, _⟩ => ⟨S100000x27, .f32⟩
  | .hbm, ⟨1, _⟩ => ⟨S2x3200000, .i32⟩
  | .hbm, ⟨2, _⟩ => ⟨S100000x12, .f32⟩
  | .hbm, ⟨3, _⟩ => ⟨S64x27, .f32⟩
  | .hbm, ⟨4, _⟩ => ⟨S64, .f32⟩
  | .hbm, ⟨5, _⟩ => ⟨S64x27, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x12, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x64, .f32⟩
  | .hbm, ⟨14, _⟩ => ⟨S1, .f32⟩
  | .hbm, ⟨15, _⟩ => ⟨S64x12, .bf16⟩
  | .hbm, ⟨16, _⟩ => ⟨S64x64, .bf16⟩
  | .hbm, ⟨17, _⟩ => ⟨S1x64, .bf16⟩
  | .hbm, ⟨18, _⟩ => ⟨S1x100000, .f32⟩
  | .hbm, ⟨19, _⟩ => ⟨S100000x1, .f32⟩
  | .local _ .vmem, ⟨0, _⟩ => ⟨S12800x12, .f32⟩
  | .local _ .vmem, ⟨1, _⟩ => ⟨S12800x12, .f32⟩
  | .local _ .vmem, ⟨2, _⟩ => ⟨S64x12, .bf16⟩
  | .local _ .vmem, ⟨3, _⟩ => ⟨S64, .f32⟩
  | .local _ .vmem, ⟨4, _⟩ => ⟨S64x64, .bf16⟩
  | .local _ .vmem, ⟨5, _⟩ => ⟨S64, .f32⟩
  | .local _ .vmem, ⟨6, _⟩ => ⟨S1x64, .bf16⟩
  | .local _ .vmem, ⟨7, _⟩ => ⟨S1, .f32⟩
  | .local _ .vmem, ⟨8, _⟩ => ⟨S1x12800, .f32⟩
  | .local _ .vmem, ⟨9, _⟩ => ⟨S1x12800, .f32⟩
  | _, _ => ⟨S100000x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12800x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x12 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x12800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S12800x12_S12800x12_0_0 : ∀ a, (![0, 0] : Fin 2 → Nat) a + S12800x12.size a ≤ S12800x12.size a
  h_S12800x12 : 0 < S12800x12.numel
  transposes_S12800x12_p1_0_S12x12800 : S12800x12.Transposes [1, 0] S12x12800
  inb_S64x12_S64x12_0_0 : ∀ a, (![0, 0] : Fin 2 → Nat) a + S64x12.size a ≤ S64x12.size a
  h_S64x12 : 0 < S64x12.numel
  shapeCasts_S64x12_S64x12 : S64x12.ShapeCasts S64x12
  inb_S64_S64_0 : ∀ a, (![0] : Fin 1 → Nat) a + S64.size a ≤ S64.size a
  h_S64 : 0 < S64.numel
  shapeCasts_S64_S64x1 : S64.ShapeCasts S64x1
  broadcasts_S64x1_S64x12800 : S64x1.Broadcasts S64x12800
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1_S1_0 : ∀ a, (![0] : Fin 1 → Nat) a + S1.size a ≤ S1.size a
  h_S1 : 0 < S1.numel
  shapeCasts_S1_S1x1 : S1.ShapeCasts S1x1
  broadcasts_S1x1_S1x12800 : S1x1.Broadcasts S1x12800
  inb_S1x12800_S1x12800_0_0 : ∀ a, (![0, 0] : Fin 2 → Nat) a + S1x12800.size a ≤ S1x12800.size a
  h_S1x12800 : 0 < S1x12800.numel
  transposes_S1x100000_S100000x1_1_0 : S1x100000.Transposes [1, 0] S100000x1
  dot_S64x12_S12x12800_S64x12800_1_0_0_1_n_n_wf : DotDims.WF S64x12 S12x12800 S64x12800 [1] [0] [0] [1] [] []
  dot_S64x64_S64x12800_S64x12800_1_0_0_1_n_n_wf : DotDims.WF S64x64 S64x12800 S64x12800 [1] [0] [0] [1] [] []
  dot_S1x64_S64x12800_S1x12800_1_0_0_1_n_n_wf : DotDims.WF S1x64 S64x12800 S1x12800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12800x12.size a < S100000x12.size a
  hwx0_0 : ∀ i : grid0.Coords, EltTy.bits .f32 = 32 ∨ (Rect.unit (s := S100000x12) (fun a => cc0_transform_0 i a * S12800x12.size a) (fun a => (Pipeline.Clip.of (cc0_transform_0 i a) (S12800x12.size a) (S100000x12.size a)).extent (S12800x12.size a)) fun a => Pipeline.Clip.inb (Pipeline.Clip.ok_of (hstart0_0 i a))).WholeWords (EltTy.packing .f32)
  hwxs0_0 : ∀ i : grid0.Coords, EltTy.bits .f32 = 32 ∨ (Rect.unit (s := S12800x12) (fun _ => 0) (fun a => (Pipeline.Clip.of (cc0_transform_0 i a) (S12800x12.size a) (S100000x12.size a)).extent (S12800x12.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x12.size a ≤ S64x12.size a
  hwx0_1 : ∀ i : grid0.Coords, EltTy.bits .bf16 = 32 ∨ (Rect.block (s := S64x12) S64x12.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .bf16 = 32 ∨ (Rect.block (s := S1x64) S1x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1x12800.size a < S1x100000.size a
  hwx0_7 : ∀ i : grid0.Coords, EltTy.bits .f32 = 32 ∨ (Rect.unit (s := S1x100000) (fun a => cc0_transform_7 i a * S1x12800.size a) (fun a => (Pipeline.Clip.of (cc0_transform_7 i a) (S1x12800.size a) (S1x100000.size a)).extent (S1x12800.size a)) fun a => Pipeline.Clip.inb (Pipeline.Clip.ok_of (hstart0_7 i a))).WholeWords (EltTy.packing .f32)
  hwxs0_7 : ∀ i : grid0.Coords, EltTy.bits .f32 = 32 ∨ (Rect.unit (s := S1x12800) (fun _ => 0) (fun a => (Pipeline.Clip.of (cc0_transform_7 i a) (S1x12800.size a) (S1x100000.size a)).extent (S1x12800.size a)) fun a => (Nat.zero_add _).trans_le (Pipeline.Clip.extent_le (Pipeline.Clip.ok_of (hstart0_7 i a)))).WholeWords (EltTy.packing .f32)

variable [Facts₀]

def dot_S64x12_S12x12800_S64x12800_1_0_0_1_n_n : DotDims S64x12 S12x12800 S64x12800 where
  lhsContracting := [1]
  rhsContracting := [0]
  lhsNonContracting := [0]
  rhsNonContracting := [1]
  lhsBatch := []
  rhsBatch := []
  wf := dot_S64x12_S12x12800_S64x12800_1_0_0_1_n_n_wf
def dot_S64x64_S64x12800_S64x12800_1_0_0_1_n_n : DotDims S64x64 S64x12800 S64x12800 where
  lhsContracting := [1]
  rhsContracting := [0]
  lhsNonContracting := [0]
  rhsNonContracting := [1]
  lhsBatch := []
  rhsBatch := []
  wf := dot_S64x64_S64x12800_S64x12800_1_0_0_1_n_n_wf
def dot_S1x64_S64x12800_S1x12800_1_0_0_1_n_n : DotDims S1x64 S64x12800 S1x12800 where
  lhsContracting := [1]
  rhsContracting := [0]
  lhsNonContracting := [0]
  rhsNonContracting := [1]
  lhsBatch := []
  rhsBatch := []
  wf := dot_S1x64_S64x12800_S1x12800_1_0_0_1_n_n_wf

abbrev win0_0 : Pipeline.Window sig grid0 :=
  Pipeline.Window.ofSpecClip (Memref.whole main_arg2) S12800x12.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S64x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v3) S1x12800.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x27 : Shape := ⟨2, ![100000, 27]⟩
abbrev S2x3200000 : Shape := ⟨2, ![2, 3200000]⟩
abbrev S100000x12 : Shape := ⟨2, ![100000, 12]⟩
abbrev S64x27 : Shape := ⟨2, ![64, 27]⟩
abbrev S64 : Shape := ⟨1, ![64]⟩
abbrev S64x64 : Shape := ⟨2, ![64, 64]⟩
abbrev S64x12 : Shape := ⟨2, ![64, 12]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x27 : Shape := ⟨2, ![3200000, 27]⟩
abbrev S100000x1 : Shape := ⟨2, ![100000, 1]⟩
abbrev S27x64 : Shape := ⟨2, ![27, 64]⟩
abbrev S100000x64 : Shape := ⟨2, ![100000, 64]⟩
abbrev S100000 : Shape := ⟨1, ![100000]⟩
abbrev S3200000x64 : Shape := ⟨2, ![3200000, 64]⟩
abbrev S12x64 : Shape := ⟨2, ![12, 64]⟩
abbrev S64x1 : Shape := ⟨2, ![64, 1]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x27, .f32⟩
  | 1 => ⟨S2x3200000, .i32⟩
  | 2 => ⟨S100000x12, .f32⟩
  | 3 => ⟨S64x27, .f32⟩
  | 4 => ⟨S64, .f32⟩
  | 5 => ⟨S64x27, .f32⟩
  | 6 => ⟨S64x64, .f32⟩
  | 7 => ⟨S64, .f32⟩
  | 8 => ⟨S64x64, .f32⟩
  | 9 => ⟨S64x12, .f32⟩
  | 10 => ⟨S64, .f32⟩
  | 11 => ⟨S64x64, .f32⟩
  | 12 => ⟨S64, .f32⟩
  | 13 => ⟨S1x64, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x27, .f32⟩
  | 28 => ⟨S_, .f32⟩
  | 29 => ⟨S100000x27, .f32⟩
  | 30 => ⟨S3200000x1, .i32⟩
  | 31 => ⟨S100000x27, .f32⟩
  | 32 => ⟨S_, .f32⟩
  | 33 => ⟨S3200000x1, .f32⟩
  | 34 => ⟨S_, .f32⟩
  | 35 => ⟨S100000x1, .f32⟩
  | 36 => ⟨S3200000x1, .i32⟩
  | 37 => ⟨S100000x1, .f32⟩
  | 38 => ⟨S_, .f32⟩
  | 39 => ⟨S100000x1, .f32⟩
  | 40 => ⟨S100000x1, .f32⟩
  | 41 => ⟨S100000x27, .f32⟩
  | 42 => ⟨S100000x27, .f32⟩
  | 43 => ⟨S27x64, .f32⟩
  | 44 => ⟨S100000x64, .f32⟩
  | 45 => ⟨S1x64, .f32⟩
  | 46 => ⟨S100000x64, .f32⟩
  | 47 => ⟨S100000x64, .f32⟩
  | 48 => ⟨S27x64, .f32⟩
  | 49 => ⟨S100000x64, .f32⟩
  | 50 => ⟨S100000x64, .f32⟩
  | 51 => ⟨S100000x64, .f32⟩
  | 52 => ⟨S_, .f32⟩
  | 53 => ⟨S100000, .f32⟩
  | 54 => ⟨S100000x1, .f32⟩
  | 55 => ⟨S100000x1, .f32⟩
  | 56 => ⟨S_, .f32⟩
  | 57 => ⟨S100000x1, .f32⟩
  | 58 => ⟨S100000x1, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x64, .f32⟩
  | 73 => ⟨S_, .f32⟩
  | 74 => ⟨S100000x64, .f32⟩
  | 75 => ⟨S3200000x1, .i32⟩
  | 76 => ⟨S100000x64, .f32⟩
  | 77 => ⟨S_, .f32⟩
  | 78 => ⟨S3200000x1, .f32⟩
  | 79 => ⟨S_, .f32⟩
  | 80 => ⟨S100000x1, .f32⟩
  | 81 => ⟨S3200000x1, .i32⟩
  | 82 => ⟨S100000x1, .f32⟩
  | 83 => ⟨S_, .f32⟩
  | 84 => ⟨S100000x1, .f32⟩
  | 85 => ⟨S100000x1, .f32⟩
  | 86 => ⟨S100000x64, .f32⟩
  | 87 => ⟨S100000x64, .f32⟩
  | 88 => ⟨S64x64, .f32⟩
  | 89 => ⟨S100000x64, .f32⟩
  | 90 => ⟨S1x64, .f32⟩
  | 91 => ⟨S100000x64, .f32⟩
  | 92 => ⟨S100000x64, .f32⟩
  | 93 => ⟨S64x64, .f32⟩
  | 94 => ⟨S100000x64, .f32⟩
  | 95 => ⟨S100000x64, .f32⟩
  | 96 => ⟨S100000x64, .f32⟩
  | 97 => ⟨S_, .f32⟩
  | 98 => ⟨S100000, .f32⟩
  | 99 => ⟨S100000x1, .f32⟩
  | 100 => ⟨S100000x1, .f32⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S12x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S64x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S64x1, .f32⟩
  | 126 => ⟨S100000x1, .f32⟩
  | 127 => ⟨S1x1, .f32⟩
  | _ => ⟨S100000x27, .f32⟩

abbrev hbmTy0_1 (i : Nat) : BufTy := match i % 128 with
  | 0 => ⟨S100000x1, .f32⟩
  | 1 => ⟨S100000x1, .f32⟩
  | _ => ⟨S100000x27, .f32⟩

abbrev hbmTy (i : Nat) : BufTy := match i / 128 with
  | 0 => hbmTy0_0 i
  | 1 => hbmTy0_1 i
  | _ => ⟨S100000x27, .f32⟩

abbrev bufTy : (tb : Table) → Fin (tcTables nBuf tb) → BufTy
  | .hbm, ⟨i, _⟩ => hbmTy i
  | _, _ => ⟨S100000x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_cst : Ref sig .tc := ⟨.hbm, 61, rfl⟩
abbrev main_call1_v0 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call3_cst : Ref sig .tc := ⟨.hbm, 106, rfl⟩
abbrev main_call3_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call4_cst : Ref sig .tc := ⟨.hbm, 114, rfl⟩
abbrev main_call4_v0 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_call5_cst : Ref sig .tc := ⟨.hbm, 122, rfl⟩
abbrev main_call5_v0 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x27 : S_.BroadcastsInDim S100000x27 (![] : Fin 0 → Fin S100000x27.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x27_0_1 : S100000x1.BroadcastsInDim S100000x27 (![0, 1] : Fin 2 → Fin S100000x27.rank)
  transposes_S64x27_S27x64_1_0 : S64x27.Transposes [1, 0] S27x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  transposes_S64x12_S12x64_1_0 : S64x12.Transposes [1, 0] S12x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x27_S3200000x1_S3200000x27_1_0_n_n_0_1_127_wf : GatherDims.WF S100000x27 S3200000x1 S3200000x27 [1] [0] [] [0] [] 1 ![1, 27]
  scatter_S100000x27_S3200000x1_S3200000x27_1_0_0_1_wf : ScatterDims.WF S100000x27 S3200000x1 S3200000x27 [1] [0] [0] 1
  scatter_S100000x1_S3200000x1_S3200000x1_1_0_0_1_wf : ScatterDims.WF S100000x1 S3200000x1 S3200000x1 [1] [0] [0] 1
  dot_S100000x27_S27x64_S100000x64_1_0_0_1_n_n_wf : DotDims.WF S100000x27 S27x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x12_S12x64_S100000x64_1_0_0_1_n_n_wf : DotDims.WF S100000x12 S12x64 S100000x64 [1] [0] [0] [1] [] []
  dot_S100000x64_S64x1_S100000x1_1_0_0_1_n_n_wf : DotDims.WF S100000x64 S64x1 S100000x1 [1] [0] [0] [1] [] []

variable [Facts₀]

def gather_S100000x27_S3200000x1_S3200000x27_1_0_n_n_0_1_127 : GatherDims S100000x27 S3200000x1 S3200000x27 where
  offsetDims := [1]
  collapsedSliceDims := [0]
  operandBatchingDims := []
  startIndicesBatchingDims := []
  startIndexMap := [0]
  indexVectorDim := 1
  sliceSizes := ![1, 27]
  wf := gather_S100000x27_S3200000x1_S3200000x27_1_0_n_n_0_1_127_wf
def scatter_S100000x27_S3200000x1_S3200000x27_1_0_0_1 : ScatterDims S100000x27 S3200000x1 S3200000x27 where
  updateWindowDims := [1]
  insertedWindowDims := [0]
  scatterDimsToOperandDims := [0]
  indexVectorDim := 1
  wf := scatter_S100000x27_S3200000x1_S3200000x27_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x27_S27x64_S100000x64_1_0_0_1_n_n : DotDims S100000x27 S27x64 S100000x64 where
  lhsContracting := [1]
  rhsContracting := [0]
  lhsNonContracting := [0]
  rhsNonContracting := [1]
  lhsBatch := []
  rhsBatch := []
  wf := dot_S100000x27_S27x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelBody.lean ====
/-
  The kernel body's triple, for either reading of the floats.

  The body loads its seven input staging blocks whole, computes one row of 12,800 outputs from them (three matrix
  products, two ramps and three bias additions over the transposed feature block), loads the output block (a value
  it never uses) and stores the row over all of it. So, started with the seven input blocks at contents `x0 … x6`
  and the output block at anything, it ends with the inputs as they were and the output block at the row computed
  from `x0 … x6`: the skeleton's payload of the seven loaded values. The output block is written whole by one
  store through the rectangle at offset zero of the block's own extents, and each load is through such a rectangle
  too, so what is loaded is the block and what is left is the payload.
-/
import proofs.«424887_j15616501088726_3_alg».proof.Proof.Gen.Kernel.Frame
import proofs.«424887_j15616501088726_3_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body, of rank two and of rank one, are zero on every axis. -/
theorem off2 : (![0, 0] : Fin 2 → Nat) = fun _ => 0 := funext fun a => by fin_cases a <;> rfl
theorem off1 : (![0] : Fin 1 → Nat) = fun _ => 0 := funext fun a => by fin_cases a; rfl

/-- The one store of the body: the whole output block. -/
abbrev outRect : Rect S1x12800 := Rect.unit (s := S1x12800) ![0, 0] S1x12800.size Facts₀.inb_S1x12800_S1x12800_0_0

/-- It covers the block, whatever it stores. -/
theorem outRect_covers (p0 : Vec F S1x12800 .f32) (y : S1x12800.Idx) :
    ∃ pc ∈ ([⟨outRect, p0⟩] : List (View.Piece (Elt F) S1x12800 .f32)), y ∈ pc.1.set :=
  ⟨⟨outRect, p0⟩, List.mem_singleton_self _, View.mem_set_unit_zero (S := S1x12800) off2 Facts₀.inb_S1x12800_S1x12800_0_0 y⟩

set_option maxHeartbeats 1000000 in
/-- The body on whole staging memrefs: the inputs' at contents `x0 … x6`, the output's at anything; it ends with the
    inputs' unchanged and the output's at the payload of the seven. -/
theorem sound_kernel (c : Dev nD) (E : Set ℕ) (i : grid0.Coords)
    (arg1 : Memref sig .tc .vmem S12800x12 .f32) (harg1 : arg1.IsWhole) (arg2 : Memref sig .tc .vmem S64x12 .bf16) (harg2 : arg2.IsWhole)
    (arg3 : Memref sig .tc .vmem S64 .f32) (harg3 : arg3.IsWhole) (arg4 : Memref sig .tc .vmem S64x64 .bf16) (harg4 : arg4.IsWhole)
    (arg5 : Memref sig .tc .vmem S64 .f32) (harg5 : arg5.IsWhole) (arg6 : Memref sig .tc .vmem S1x64 .bf16) (harg6 : arg6.IsWhole)
    (arg7 : Memref sig .tc .vmem S1 .f32) (harg7 : arg7.IsWhole) (arg8 : Memref sig .tc .vmem S1x12800 .f32) (harg8 : arg8.IsWhole)
    (x0 : Vec F S12800x12 .f32) (x1 : Vec F S64x12 .bf16) (x2 : Vec F S64 .f32) (x3 : Vec F S64x64 .bf16) (x4 : Vec F S64 .f32)
    (x5 : Vec F S1x64 .bf16) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k0_pay1 x0 x1 x2 x3 x4 x5 x6)) -∗ K ⟨⟩))
      ⊢ wp frame (wpE (defs₀ (F := F)) Variants.none c none) E
          (cc0__fc_kernel i arg1 harg1 arg2 harg2 arg3 harg3 arg4 harg4 arg5 harg5 arg6 harg6 arg7 harg7 arg8 harg8) K := by
  simp only [cc0__fc_kernel_eq_skeleton]; unfold cc0__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (outRect_covers _), View.canon_unit_zero off2]
  simp only [View.readAt_eq_ld, View.ld_unit_zero (S := S12800x12) off2, View.ld_unit_zero (S := S64x12) off2,
    View.ld_unit_zero (S := S64x64) off2, View.ld_unit_zero (S := S1x64) off2, View.ld_unit_zero (S := S64) off1,
    View.ld_unit_zero (S := S1) off1]

end Cert.Kernel.Body

end
-- ==== Proof.KernelFrame.lean ====
/-
  The frame of the printed kernel, read at bit patterns: it runs to the end, faults nowhere, and leaves its fifteen
  argument arrays as they were.

  The pipeline has eight windows. Window 0 (the features, 12,800 rows a block over eight grid points) and window 7
  (the output row, 12,800 columns a block) are the two whose last block runs past the array's end, so a staging
  buffer of either holds, past the part a transfer moves, words nothing names; windows 1 to 6 (the three weight
  matrices and the three biases) are fetched whole at the first point and kept. The frame says nothing of what the
  output array holds, and an input array is never written, so the contents of the buffers of windows 0 and 7 are
  left unnamed: the body is handed each at some contents and hands each back at some contents. For windows 1 to 6
  the buffer holds the window's block at every point, and the body, which only loads them, leaves it there.
  After the region @main transposes the output row into the result; that line writes the result's buffer only.
-/
import proofs.«424887_j15616501088726_3_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose staging contents go unnamed: the two whose blocks may run past the array's end. -/
abbrev unnamedWin : Fin cfg0.W → Bool := fun | 0 => true | 1 => false | 2 => false | 3 => false | 4 => false | 5 => false | 6 => false | 7 => true | ⟨_ + 8, h⟩ => absurd h (Nat.not_lt.2 (Nat.le_add_left _ _))

/-- The proof data on core `c`: the arrays as the region finds them; after the body windows 1 to 6 at their blocks
    (windows 0 and 7 get a filler nothing reads); the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => fun _ => Scalar.ofBits .f32 0#32
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Windows 1 to 6 hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body at any point: the six kept inputs hold their blocks, the features' buffer holds something, so the body's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_1, after0_2, after0_3, after0_4, after0_5, after0_6]
  iintro ⟨HΦ, Ho, ⟨%X0, H0⟩, ⟨%d1, H1⟩, ⟨%d2, H2⟩, ⟨%d3, H3⟩, ⟨%d4, H4⟩, ⟨%d5, H5⟩, ⟨%d6, H6⟩, ⟨%X7, H7⟩⟩
  iapply (sound_kernel c Set.univ (grid0.coords t) _ _ _ _ _ _ _ _ _ _ _ _ _ _ _ _ X0 (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists _; iexact H0
  isplitl [H1]; · iexact H1
  isplitl [H2]; · iexact H2
  isplitl [H3]; · iexact H3
  isplitl [H4]; · iexact H4
  isplitl [H5]; · iexact H5
  isplitl [H6]; · iexact H6
  iexists _; iexact H7

/-- The library's body obligation at every point, windows 0 and 7 unnamed. -/
theorem body_obligation (c : Dev nD) :
    BodyObligationLoose (dats (F := F) m 0 c) (defs₀ (F := F)) Variants.none () Set.univ unnamedWin := fun t => by
  rw [bigSep_W0, bigSep_W0]
  exact sound_body m c t

/-- The buffers the line after the region writes: the result's. -/
abbrev tailWrites : Finset (Ref sig .tc) := {main_v4}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

set_option backward.isDefEq.respectTransparency.types false in
/-- Every weakly fair execution of @main terminates, and at the end every input array of the pipeline holds what it
    held at the region's entry and so does every other unscoped buffer but the result's. -/
theorem run_main : θ_run defs (onTc (τ := τ) (main (F := F))) (s₀ m ρ)
    (Pipeline.RDat.FramePostR cfg0 (fun c => (dats m 0 c).toRForget unnamedWin) tailWrites (V m)) :=
  Pipeline.RDat.θ_run_frame_around_T cfgs (0 : Fin 1) launch0 defs₀ Variants.none (fun c => (dats m 0 c).toRForget unnamedWin) tailWrites m ρ main
    (hbody := fun c => (body_obligation m c).toRForget) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the fifteen argument arrays end as launched. Those the pipeline stages (2, 10, 12, 14) are input
    arrays of it; the others pass the region by and are not the result's buffer; none is written by the three format
    changes before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    have rest : ∀ b : Ref sig .tc, b.isScoped = false → (∀ w, ((cfg0.spec w).arr.view.ref ≠ b)) → b ∉ tailWrites →
        _ = V m c b := fun b hs ha hb => (h c).2 b (Finset.mem_sdiff.mpr ⟨Pipeline.mem_restRefs_of b hs ha, hb⟩)
    ⟨(rest main_arg0 (by decide) (by decide) (by decide)).trans (V_main_arg0 m c),
      (rest main_arg1 (by decide) (by decide) (by decide)).trans (V_main_arg1 m c),
      (Pipeline.RDat.FramePostR.arr_in h c 0 rfl).trans ((A_eq m c 0).trans (V_main_arg2 m c)),
      (rest main_arg3 (by decide) (by decide) (by decide)).trans (V_main_arg3 m c),
      (rest main_arg4 (by decide) (by decide) (by decide)).trans (V_main_arg4 m c),
      (rest main_arg5 (by decide) (by decide) (by decide)).trans (V_main_arg5 m c),
      (rest main_arg6 (by decide) (by decide) (by decide)).trans (V_main_arg6 m c),
      (rest main_arg7 (by decide) (by decide) (by decide)).trans (V_main_arg7 m c),
      (rest main_arg8 (by decide) (by decide) (by decide)).trans (V_main_arg8 m c),
      (rest main_arg9 (by decide) (by decide) (by decide)).trans (V_main_arg9 m c),
      (Pipeline.RDat.FramePostR.arr_in h c 2 rfl).trans ((A_eq m c 2).trans (V_main_arg10 m c)),
      (rest main_arg11 (by decide) (by decide) (by decide)).trans (V_main_arg11 m c),
      (Pipeline.RDat.FramePostR.arr_in h c 4 rfl).trans ((A_eq m c 4).trans (V_main_arg12 m c)),
      (rest main_arg13 (by decide) (by decide) (by decide)).trans (V_main_arg13 m c),
      (Pipeline.RDat.FramePostR.arr_in h c 6 rfl).trans ((A_eq m c 6).trans (V_main_arg14 m c))⟩) (run_main m ρ)

end Cert.Kernel.Body

end
-- ==== Proof.KernelIdealBody.lean ====
/-
  The kernel body's triple, for either reading of the floats.

  The body loads its seven input staging blocks whole, computes one row of 12,800 outputs from them (three matrix
  products, two ramps and three bias additions over the transposed feature block), loads the output block (a value
  it never uses) and stores the row over all of it. So, started with the seven input blocks at contents `x0 … x6`
  and the output block at anything, it ends with the inputs as they were and the output block at the row computed
  from `x0 … x6`: the skeleton's payload of the seven loaded values. The output block is written whole by one
  store through the rectangle at offset zero of the block's own extents, and each load is through such a rectangle
  too, so what is loaded is the block and what is left is the payload.
-/
import proofs.«424887_j15616501088726_3_alg».proof.Proof.Gen.KernelIdeal.Frame
import proofs.«424887_j15616501088726_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body, of rank two and of rank one, are zero on every axis. -/
theorem off2 : (![0, 0] : Fin 2 → Nat) = fun _ => 0 := funext fun a => by fin_cases a <;> rfl
theorem off1 : (![0] : Fin 1 → Nat) = fun _ => 0 := funext fun a => by fin_cases a; rfl

/-- The one store of the body: the whole output block. -/
abbrev outRect : Rect S1x12800 := Rect.unit (s := S1x12800) ![0, 0] S1x12800.size Facts₀.inb_S1x12800_S1x12800_0_0

/-- It covers the block, whatever it stores. -/
theorem outRect_covers (p0 : Vec F S1x12800 .f32) (y : S1x12800.Idx) :
    ∃ pc ∈ ([⟨outRect, p0⟩] : List (View.Piece (Elt F) S1x12800 .f32)), y ∈ pc.1.set :=
  ⟨⟨outRect, p0⟩, List.mem_singleton_self _, View.mem_set_unit_zero (S := S1x12800) off2 Facts₀.inb_S1x12800_S1x12800_0_0 y⟩

set_option maxHeartbeats 1000000 in
/-- The body on whole staging memrefs: the inputs' at contents `x0 … x6`, the output's at anything; it ends with the
    inputs' unchanged and the output's at the payload of the seven. -/
theorem sound_kernel (c : Dev nD) (E : Set ℕ) (i : grid0.Coords)
    (arg1 : Memref sig .tc .vmem S12800x12 .f32) (harg1 : arg1.IsWhole) (arg2 : Memref sig .tc .vmem S64x12 .bf16) (harg2 : arg2.IsWhole)
    (arg3 : Memref sig .tc .vmem S64 .f32) (harg3 : arg3.IsWhole) (arg4 : Memref sig .tc .vmem S64x64 .bf16) (harg4 : arg4.IsWhole)
    (arg5 : Memref sig .tc .vmem S64 .f32) (harg5 : arg5.IsWhole) (arg6 : Memref sig .tc .vmem S1x64 .bf16) (harg6 : arg6.IsWhole)
    (arg7 : Memref sig .tc .vmem S1 .f32) (harg7 : arg7.IsWhole) (arg8 : Memref sig .tc .vmem S1x12800 .f32) (harg8 : arg8.IsWhole)
    (x0 : Vec F S12800x12 .f32) (x1 : Vec F S64x12 .bf16) (x2 : Vec F S64 .f32) (x3 : Vec F S64x64 .bf16) (x4 : Vec F S64 .f32)
    (x5 : Vec F S1x64 .bf16) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k0_pay1 x0 x1 x2 x3 x4 x5 x6)) -∗ K ⟨⟩))
      ⊢ wp frame (wpE (defs₀ (F := F)) Variants.none c none) E
          (cc0__fc_kernel i arg1 harg1 arg2 harg2 arg3 harg3 arg4 harg4 arg5 harg5 arg6 harg6 arg7 harg7 arg8 harg8) K := by
  simp only [cc0__fc_kernel_eq_skeleton]; unfold cc0__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (outRect_covers _), View.canon_unit_zero off2]
  simp only [View.readAt_eq_ld, View.ld_unit_zero (S := S12800x12) off2, View.ld_unit_zero (S := S64x12) off2,
    View.ld_unit_zero (S := S64x64) off2, View.ld_unit_zero (S := S1x64) off2, View.ld_unit_zero (S := S64) off1,
    View.ld_unit_zero (S := S1) off1]

end Cert.KernelIdeal.Body

end
-- ==== Proof.Mlp.lean ====
/-
  The function both programs compute, one input row at a time.

  A row `x` of twelve features goes through three dense layers: sixty-four units with a ramp, sixty-four units with a
  ramp, one unit without. A dense unit `h` of a layer with weight matrix `w` (one row per unit) and bias `b` is
  `(∑ j, w (h, j) · x j) + b h` over the extended reals, the product written weight first; the ramp is the maximum with
  the zero word of the 32-bit format. Nothing here mentions a program: the kernel's block payload and the reference's
  result are both shown to be this function of the row.
-/
import Idealize.ShloMosaic.PureOps.Ideal.Laws
import Idealize.ShloMosaic.Lib.ValueIdx

noncomputable section

open scoped BigOperators

namespace Cert.Mlp

open Idealize.ShloMosaic Idealize.ShloMosaic.ValueIdx

/-- The zero the ramp compares with: the all-zero 32-bit word read as an extended real. -/
abbrev zeroWord : EReal := FloatOps.ofBits (F := Ideal) .f32 0x00000000#32

/-- The ramp: the maximum with zero. -/
def ramp (y : EReal) : EReal := FloatOps.maximumf (F := Ideal) (φ := .f32) y zeroWord

/-- Unit `h` of a dense layer: the weighted sum of the inputs, weight first, plus the unit's bias. -/
def dense {n k : Nat} (w : (⟨2, ![n, k]⟩ : Shape).Idx → EReal) (b : (⟨1, ![n]⟩ : Shape).Idx → EReal) (x : Fin k → EReal)
    (h : Fin n) : EReal :=
  FloatOps.addf (F := Ideal) (φ := .f32) (∑ j : Fin k, w (ix2 h j) * x j) (b (ix1 h))

/-- The three layers on one row. -/
def row (w1 : (⟨2, ![64, 12]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![1, 64]⟩ : Shape).Idx → EReal) (b3 : (⟨1, ![1]⟩ : Shape).Idx → EReal) (x : Fin 12 → EReal) : EReal :=
  dense w3 b3 (fun h2 => ramp (dense w2 b2 (fun h1 => ramp (dense w1 b1 x h1)) h2)) 0

/-- The whole result: row `r` of the features through the three layers, as a one-column array. -/
def out (sf : (⟨2, ![100000, 12]⟩ : Shape).Idx → EReal) (w1 : (⟨2, ![64, 12]⟩ : Shape).Idx → EReal)
    (b1 : (⟨1, ![64]⟩ : Shape).Idx → EReal) (w2 : (⟨2, ![64, 64]⟩ : Shape).Idx → EReal) (b2 : (⟨1, ![64]⟩ : Shape).Idx → EReal)
    (w3 : (⟨2, ![1, 64]⟩ : Shape).Idx → EReal) (b3 : (⟨1, ![1]⟩ : Shape).Idx → EReal) :
    (⟨2, ![100000, 1]⟩ : Shape).Idx → EReal :=
  fun i => row w1 b1 w2 b2 w3 b3 (fun j => sf (ix2 (i 0) j))

end Cert.Mlp

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.IdealPayload.lean ====
/-
  The kernel body's row of outputs, read at one column over the extended reals.

  The body transposes its block of 12,800 feature rows, so that a column is a row's twelve features, and runs three
  dense layers on the columns: a product of the weights (one row per unit) with the columns into a zero accumulator, the
  bias broadcast along the columns, and for the first two layers the maximum with zero. A product's entry `(p, c)` sums
  over the contracted axis only, so entry `(p, c)` of each layer is unit `p` of the dense layer on column `c` of its
  input. Hence column `q` of the body's result is the three layers of `Cert.Mlp` on row `q` of the feature block, and
  on no other row.
-/
import proofs.«424887_j15616501088726_3_alg».proof.Proof.Gen.KernelIdeal.Skeleton
import proofs.«424887_j15616501088726_3_alg».proof.Proof.Mlp
import proofs.«424887_j15616501088726_3_alg».proof.Proof.LibPlainProduct
import Idealize.ShloMosaic.Lib.ValueLayout
import Idealize.ShloMosaic.Lib.Pipeline.Value

noncomputable section

open scoped BigOperators

namespace Cert.KernelIdeal.Payload

open Cert.KernelIdeal Cert.KernelIdeal.Gen Cert.Lib.PlainProduct Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[a]`, cast to a column `[a, 1]` and broadcast over `b` columns, reads at `(p, c)` its entry `p`. -/
theorem bias_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) := by
  rw [broadcastTo_a1_ab_apply, shapeCast_a_a1_apply]

end Layout

/-- One dense layer of the body at entry `(p, c)`: the product of the weights (through a cast to their own shape) with
    the layer's input into the zero splat, plus the broadcast bias, is unit `p` of the dense layer on column `c` of the
    input. -/
theorem dense_apply {M K N : ℕ} {D : DotDims ⟨2, ![M, K]⟩ ⟨2, ![K, N]⟩ ⟨2, ![M, N]⟩} (hD : IsPlain D)
    (w : FVec Ideal ⟨2, ![M, K]⟩ .bf16) (hw : (⟨2, ![M, K]⟩ : Shape).ShapeCasts ⟨2, ![M, K]⟩)
    (r : FVec Ideal ⟨2, ![K, N]⟩ .bf16) (b : FVec Ideal ⟨1, ![M]⟩ .f32)
    (h1 : (⟨1, ![M]⟩ : Shape).ShapeCasts ⟨2, ![M, 1]⟩) (h2 : (⟨2, ![M, 1]⟩ : Shape).Broadcasts ⟨2, ![M, N]⟩)
    (p : Fin M) (c : Fin N) :
    addf (matmul D none (shapeCast ⟨2, ![M, K]⟩ w hw) r (constant ⟨2, ![M, N]⟩ .f32 0x00000000#32))
        (broadcastTo ⟨2, ![M, N]⟩ (shapeCast ⟨2, ![M, 1]⟩ b h1) h2) (ix2 p c)
      = Cert.Mlp.dense w b (fun k => r (ix2 k c)) p := by
  rw [shapeCast_self]
  show FloatOps.addf (F := Ideal) (φ := .f32)
      (FloatOps.matmul D none w r (constant ⟨2, ![M, N]⟩ .f32 0x00000000#32) (ix2 p c))
      (broadcastTo ⟨2, ![M, N]⟩ (shapeCast ⟨2, ![M, 1]⟩ b h1) h2 (ix2 p c)) = _
  rw [matmul_zero_apply hD, bias_apply]
  rfl

/-- The body's input to the first layer, the feature block transposed (the narrowing to the 16-bit format is the
    identity over the extended reals), reads at `(k, q)` feature `k` of row `q`. -/
theorem input_apply {a b : ℕ} (x : FVec Ideal ⟨2, ![a, b]⟩ .f32) (h : (⟨2, ![a, b]⟩ : Shape).Transposes [1, 0] ⟨2, ![b, a]⟩)
    (hb : FTy.bits .bf16 < FTy.bits .f32) (k : Fin b) (q : Fin a) :
    truncf .bf16 (transpose ⟨2, ![b, a]⟩ [1, 0] x h) hb (ix2 k q) = x (ix2 q k) :=
  transpose_ix2_apply x h k q

/-- A hidden layer of the body at entry `(p, c)`: the dense layer, then the maximum with the zero splat (and the
    narrowing, the identity over the extended reals), is the ramp of unit `p` of the dense layer on column `c`. -/
theorem hidden_apply {M K N : ℕ} {D : DotDims ⟨2, ![M, K]⟩ ⟨2, ![K, N]⟩ ⟨2, ![M, N]⟩} (hD : IsPlain D)
    (w : FVec Ideal ⟨2, ![M, K]⟩ .bf16) (hw : (⟨2, ![M, K]⟩ : Shape).ShapeCasts ⟨2, ![M, K]⟩)
    (r : FVec Ideal ⟨2, ![K, N]⟩ .bf16) (b : FVec Ideal ⟨1, ![M]⟩ .f32)
    (h1 : (⟨1, ![M]⟩ : Shape).ShapeCasts ⟨2, ![M, 1]⟩) (h2 : (⟨2, ![M, 1]⟩ : Shape).Broadcasts ⟨2, ![M, N]⟩)
    (hb : FTy.bits .bf16 < FTy.bits .f32) (p : Fin M) (c : Fin N) :
    truncf .bf16 (maximumf
        (addf (matmul D none (shapeCast ⟨2, ![M, K]⟩ w hw) r (constant ⟨2, ![M, N]⟩ .f32 0x00000000#32))
          (broadcastTo ⟨2, ![M, N]⟩ (shapeCast ⟨2, ![M, 1]⟩ b h1) h2))
        (broadcast ⟨2, ![M, N]⟩ (Scalar.ofBits (F := Ideal) .f32 0x00000000#32))) hb (ix2 p c)
      = Cert.Mlp.ramp (Cert.Mlp.dense w b (fun k => r (ix2 k c)) p) := by
  rw [← dense_apply hD w hw r b h1 h2 p c]
  rfl

/-- The three products of the body are plain matrix products. -/
theorem plain1 : IsPlain (M := 64) (K := 12) (N := 12800) dot_S64x12_S12x12800_S64x12800_1_0_0_1_n_n :=
  ⟨rfl, rfl, rfl, rfl, rfl, rfl⟩

theorem plain2 : IsPlain (M := 64) (K := 64) (N := 12800) dot_S64x64_S64x12800_S64x12800_1_0_0_1_n_n :=
  ⟨rfl, rfl, rfl, rfl, rfl, rfl⟩

theorem plain3 : IsPlain (M := 1) (K := 64) (N := 12800) dot_S1x64_S64x12800_S1x12800_1_0_0_1_n_n :=
  ⟨rfl, rfl, rfl, rfl, rfl, rfl⟩

/-- The payload at column `q` is the three layers on row `q` of the feature block: the last layer's entry `(0, q)`
    is its one dense unit on column `q` of the second hidden layer, whose entries are the ramps of the dense units on
    column `q` of the first hidden layer, whose entries are the ramps of the dense units on column `q` of the transposed
    features, which is row `q` of the features. -/
theorem pay_apply (x0 : Vec Ideal S12800x12 .f32) (w1 : Vec Ideal S64x12 .bf16) (b1 : Vec Ideal S64 .f32) (w2 : Vec Ideal S64x64 .bf16) (b2 : Vec Ideal S64 .f32) (w3 : Vec Ideal S1x64 .bf16) (b3 : Vec Ideal S1 .f32) (q : Fin 12800) :
    k0_pay1 (F := Ideal) x0 w1 b1 w2 b2 w3 b3 (ix2 (0 : Fin 1) q) = Cert.Mlp.row w1 b1 w2 b2 w3 b3 (fun j => x0 (ix2 q j)) := by
  unfold Cert.Mlp.row
  refine (dense_apply plain3 w3 _ _ b3 _ _ 0 q).trans ?_
  refine congrArg (fun x => Cert.Mlp.dense w3 b3 x 0) (funext fun h2 => ?_)
  refine (hidden_apply plain2 w2 _ _ b2 _ _ _ h2 q).trans ?_
  refine congrArg (fun x => Cert.Mlp.ramp (Cert.Mlp.dense w2 b2 x h2)) (funext fun h1 => ?_)
  refine (hidden_apply plain1 w1 _ _ b1 _ _ _ h1 q).trans ?_
  refine congrArg (fun x => Cert.Mlp.ramp (Cert.Mlp.dense w1 b1 x h1)) (funext fun j => ?_)
  exact input_apply x0 _ _ j q

end Cert.KernelIdeal.Payload

end
-- ==== Proof.IdealRun.lean ====
/-
  The idealized kernel's run, with what the output array holds at the end.

  The grid has eight points; point `t` fetches rows `12800·t …` of the features into a block of 12,800 rows and writes
  a block of 12,800 columns of the output row back. The array has 100,000 rows, so the last block has 10,400 rows
  inside the array and 2,400 past its end: the fetch there fills the block's first 10,400 rows and leaves the rest at
  words nothing names, and the write-back writes the first 10,400 columns only. The body computes column `q` of its
  output block from row `q` of the feature block alone (each of the three products contracts over features or units,
  never over rows), so the unnamed rows reach only the columns that are not written back: on the columns inside the
  array the block the body leaves is the three-layer function of the rows inside the array, whatever filled the rest.
  The blocks written back tile the output row, so the row ends holding that function of every feature row.
-/
import proofs.«424887_j15616501088726_3_alg».proof.Proof.KernelIdealBody
import proofs.«424887_j15616501088726_3_alg».proof.Proof.IdealPayload

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The feature block of point `t`: its rows inside the array, and zero on the rows past the array's end. -/
def featBlock (c : Dev nD) (t : Fin cfg0.N) : Vec Ideal S12800x12 .f32 :=
  win0_0.fill (grid0.coords t) (fun _ => Scalar.ofBits (F := Ideal) .f32 0#32) (iblk m c 0 t)

/-- The output block of point `t`: the body's row of that feature block and of the six weight and bias blocks. -/
def outBlock (c : Dev nD) (t : Fin cfg0.N) : Vec Ideal S1x12800 .f32 :=
  k0_pay1 (featBlock m c t) (iblk m c 1 t) (iblk m c 2 t) (iblk m c 3 t) (iblk m c 4 t) (iblk m c 5 t) (iblk m c 6 t)

/-- The proof data on core `c`: the arrays as the region finds them; after the body the feature block, the six kept
    blocks, and the output block; the class's invariant; nothing owed; full shares. -/
def datsI (_ : Fin 1) (c : Dev nD) : Dat τ (Elt Ideal) Unit ℕ (UR sig nD τ) ℕ cfg0 c where
  A w := V m c (Pipeline.arrRef spec0 w)
  after w t := match w with
    | ⟨0, _⟩ => featBlock m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ _ := Pipeline.ΦA spec0 c
  q _ := fullShare
  owed _ := 0

theorem AI_eq (c : Dev nD) (w : Fin cfg0.W) : (datsI m 0 c).A w = V m c (Pipeline.arrRef spec0 w) := by
  dsimp only [datsI]

theorem afterI_0 (c : Dev nD) (t : Fin cfg0.N) : (datsI m 0 c).after 0 t = featBlock m c t := by dsimp only [datsI]
theorem afterI_1 (c : Dev nD) (t : Fin cfg0.N) : (datsI m 0 c).after 1 t = iblk m c 1 t := by dsimp only [datsI]
theorem afterI_2 (c : Dev nD) (t : Fin cfg0.N) : (datsI m 0 c).after 2 t = iblk m c 2 t := by dsimp only [datsI]
theorem afterI_3 (c : Dev nD) (t : Fin cfg0.N) : (datsI m 0 c).after 3 t = iblk m c 3 t := by dsimp only [datsI]
theorem afterI_4 (c : Dev nD) (t : Fin cfg0.N) : (datsI m 0 c).after 4 t = iblk m c 4 t := by dsimp only [datsI]
theorem afterI_5 (c : Dev nD) (t : Fin cfg0.N) : (datsI m 0 c).after 5 t = iblk m c 5 t := by dsimp only [datsI]
theorem afterI_6 (c : Dev nD) (t : Fin cfg0.N) : (datsI m 0 c).after 6 t = iblk m c 6 t := by dsimp only [datsI]
theorem afterI_7 (c : Dev nD) (t : Fin cfg0.N) : (datsI m 0 c).after 7 t = outBlock m c t := by dsimp only [datsI]

/-- The features' buffer, fetched at every point, holds the block on the rows inside the array and what it held
    before elsewhere. -/
theorem beforeI_0 (c : Dev nD) (t : Fin cfg0.N) (d) :
    (datsI m 0 c).before 0 t d = win0_0.fill (grid0.coords t) d (iblk m c 0 t) := by
  rw [Dat.before_fetched _ 0 t (fetch0_0 t)]
  unfold Dat.fetched Dat.blockOf iblk
  rw [AI_eq]
theorem beforeI_1 (c : Dev nD) (t : Fin cfg0.N) (d) : (datsI m 0 c).before 1 t d = iblk m c 1 t :=
  before0_1_of m (datsI m 0 c) (AI_eq m c 1) (afterI_1 m c) t d
theorem beforeI_2 (c : Dev nD) (t : Fin cfg0.N) (d) : (datsI m 0 c).before 2 t d = iblk m c 2 t :=
  before0_2_of m (datsI m 0 c) (AI_eq m c 2) (afterI_2 m c) t d
theorem beforeI_3 (c : Dev nD) (t : Fin cfg0.N) (d) : (datsI m 0 c).before 3 t d = iblk m c 3 t :=
  before0_3_of m (datsI m 0 c) (AI_eq m c 3) (afterI_3 m c) t d
theorem beforeI_4 (c : Dev nD) (t : Fin cfg0.N) (d) : (datsI m 0 c).before 4 t d = iblk m c 4 t :=
  before0_4_of m (datsI m 0 c) (AI_eq m c 4) (afterI_4 m c) t d
theorem beforeI_5 (c : Dev nD) (t : Fin cfg0.N) (d) : (datsI m 0 c).before 5 t d = iblk m c 5 t :=
  before0_5_of m (datsI m 0 c) (AI_eq m c 5) (afterI_5 m c) t d
theorem beforeI_6 (c : Dev nD) (t : Fin cfg0.N) (d) : (datsI m 0 c).before 6 t d = iblk m c 6 t :=
  before0_6_of m (datsI m 0 c) (AI_eq m c 6) (afterI_6 m c) t d
/-- The output's buffer, written back at every point, is fresh at every point. -/
theorem beforeI_7 (c : Dev nD) (t : Fin cfg0.N) (d) : (datsI m 0 c).before 7 t d = d :=
  Dat.before_out_reset _ 7 rfl t (if h0 : t.val = 0 then .inl h0 else .inr ⟨h0, flush0_7 _⟩) d

/-! ## A column of the output block depends on one row of the feature block -/

/-- The two clipped windows cut alike: the output block keeps as many columns as the feature block keeps rows, and the
    feature block keeps all twelve features. -/
theorem cuts_agree : ∀ t : Fin cfg0.N, win0_7.xsize (grid0.coords t) 1 = win0_0.xsize (grid0.coords t) 0
    ∧ win0_0.xsize (grid0.coords t) 1 = 12 :=
  (by decide +kernel : ∀ t : Fin grid0.N, win0_7.xsize (grid0.coords t) 1 = win0_0.xsize (grid0.coords t) 0
    ∧ win0_0.xsize (grid0.coords t) 1 = 12)

/-- On a row inside the array the filled feature block is the block, whatever fills the rest. -/
theorem fill_row (c : Dev nD) (t : Fin cfg0.N) (d : S12800x12.Idx → Elt Ideal .f32) (q : Fin 12800)
    (hq : q.val < win0_0.xsize (grid0.coords t) 0) (k : Fin 12) :
    win0_0.fill (grid0.coords t) d (iblk m c 0 t) (ix2 q k)
      = iblk m c 0 t (fun a => match a with
          | ⟨0, _⟩ => ⟨q.val, hq⟩
          | ⟨1, _⟩ => ⟨k.val, by show k.val < win0_0.xsize (grid0.coords t) 1; rw [(cuts_agree t).2]; exact k.isLt⟩) := by
  have hm : win0_0.moved (grid0.coords t) (ix2 q k) = true := (win0_0.moved_iff _ _).mpr fun a => by
    match a with
    | ⟨0, _⟩ => exact hq
    | ⟨1, _⟩ => show k.val < win0_0.xsize (grid0.coords t) 1; rw [(cuts_agree t).2]; exact k.isLt
  unfold Window.fill
  rw [dif_pos hm]
  congr 1
  funext a
  match a with
  | ⟨0, _⟩ => rfl
  | ⟨1, _⟩ => rfl

/-- So on the columns written back the body's row does not depend on what fills the feature block past the array. -/
theorem cut_row (c : Dev nD) (t : Fin cfg0.N) (d : S12800x12.Idx → Elt Ideal .f32) :
    win0_7.cut (grid0.coords t) (k0_pay1 (F := Ideal) (win0_0.fill (grid0.coords t) d (iblk m c 0 t)) (iblk m c 1 t) (iblk m c 2 t)
        (iblk m c 3 t) (iblk m c 4 t) (iblk m c 5 t) (iblk m c 6 t))
      = win0_7.cut (grid0.coords t) (outBlock m c t) := by
  funext j
  have hj : (j 1).val < win0_0.xsize (grid0.coords t) 0 := by rw [← (cuts_agree t).1]; exact (j 1).isLt
  have hq : (j 1).val < 12800 := Nat.lt_of_lt_of_le (j 1).isLt (win0_7.xsize_le (grid0.coords t) 1)
  have e : win0_7.xinj (grid0.coords t) j = ix2 (0 : Fin 1) (⟨(j 1).val, hq⟩ : Fin 12800) := funext fun a => Fin.ext (by
    match a with
    | ⟨0, _⟩ =>
      have h1 : (j 0).val < 1 := Nat.lt_of_lt_of_le (j 0).isLt (win0_7.xsize_le (grid0.coords t) 0)
      show (j 0).val = 0
      omega
    | ⟨1, _⟩ => rfl)
  show k0_pay1 (F := Ideal) _ _ _ _ _ _ _ (win0_7.xinj (grid0.coords t) j) = outBlock m c t (win0_7.xinj (grid0.coords t) j)
  unfold outBlock featBlock
  rw [e, Payload.pay_apply, Payload.pay_apply]
  congr 1
  funext k
  rw [fill_row m c t d ⟨(j 1).val, hq⟩ hj k, fill_row m c t _ ⟨(j 1).val, hq⟩ hj k]

/-! ## The body obligation -/

/-- What the body is called with at point `t`, the windows one by one, -/
def bodyPreI (c : Dev nD) (t : Fin cfg0.N) : sProp 𝕄 :=
  iprop((datsI m 0 c).Φ t.castSucc ∗ (datsI m 0 c).owesAt () t.castSucc
    ∗ (∃ d, owns (c : Thread nD τ) (st0_0 t) fullShare ((datsI m 0 c).before 0 t d))
    ∗ (∃ d, owns (c : Thread nD τ) (st0_1 t) fullShare ((datsI m 0 c).before 1 t d))
    ∗ (∃ d, owns (c : Thread nD τ) (st0_2 t) fullShare ((datsI m 0 c).before 2 t d))
    ∗ (∃ d, owns (c : Thread nD τ) (st0_3 t) fullShare ((datsI m 0 c).before 3 t d))
    ∗ (∃ d, owns (c : Thread nD τ) (st0_4 t) fullShare ((datsI m 0 c).before 4 t d))
    ∗ (∃ d, owns (c : Thread nD τ) (st0_5 t) fullShare ((datsI m 0 c).before 5 t d))
    ∗ (∃ d, owns (c : Thread nD τ) (st0_6 t) fullShare ((datsI m 0 c).before 6 t d))
    ∗ (∃ d, owns (c : Thread nD τ) (st0_7 t) fullShare ((datsI m 0 c).before 7 t d)))

/-- and what it returns: the two clipped windows' buffers are described on the part their transfers move only. -/
def bodyPostI (c : Dev nD) (t : Fin cfg0.N) : sProp 𝕄 :=
  iprop((datsI m 0 c).Φ t.succ ∗ (datsI m 0 c).owesAt () t.succ
    ∗ (∃ d, owns (c : Thread nD τ) (st0_0 t) fullShare
        ((cfg0.win 0).fill (cfg0.grid.coords t) d ((cfg0.win 0).cut (cfg0.grid.coords t) ((datsI m 0 c).after 0 t))))
    ∗ owns (c : Thread nD τ) (st0_1 t) fullShare ((datsI m 0 c).after 1 t)
    ∗ owns (c : Thread nD τ) (st0_2 t) fullShare ((datsI m 0 c).after 2 t)
    ∗ owns (c : Thread nD τ) (st0_3 t) fullShare ((datsI m 0 c).after 3 t)
    ∗ owns (c : Thread nD τ) (st0_4 t) fullShare ((datsI m 0 c).after 4 t)
    ∗ owns (c : Thread nD τ) (st0_5 t) fullShare ((datsI m 0 c).after 5 t)
    ∗ owns (c : Thread nD τ) (st0_6 t) fullShare ((datsI m 0 c).after 6 t)
    ∗ (∃ d, owns (c : Thread nD τ) (st0_7 t) fullShare
        ((cfg0.win 7).fill (cfg0.grid.coords t) d ((cfg0.win 7).cut (cfg0.grid.coords t) ((datsI m 0 c).after 7 t)))))

/-- The body at any point. The features' buffer arrives holding the block on the rows inside the array and some `d`
    elsewhere; the body's triple leaves it so and leaves the output's buffer at the row computed from it; on the part
    written back that row is the output block's (`cut_row`), which is all the obligation states. -/
theorem sound_bodyI (c : Dev nD) (t : Fin cfg0.N) :
    bodyPreI m c t ⊢ wp frame (wpE (defs₀ (F := Ideal)) Variants.none c none) Set.univ (bodyAt0 t) (fun _ => bodyPostI m c t) := by
  unfold bodyPreI bodyPostI bodyAt0
  simp only [beforeI_0, beforeI_1, beforeI_2, beforeI_3, beforeI_4, beforeI_5, beforeI_6, beforeI_7]
  rw [show (datsI m 0 c).Φ t.succ = (datsI m 0 c).Φ t.castSucc from rfl,
    show (datsI m 0 c).owesAt () t.succ = (datsI m 0 c).owesAt () t.castSucc from rfl,
    afterI_0, afterI_1, afterI_2, afterI_3, afterI_4, afterI_5, afterI_6, afterI_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (win0_0.fill (grid0.coords t) d0 (iblk m c 0 t))
    (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have hx : win0_0.cut (grid0.coords t) (featBlock m c t) = iblk m c 0 t := win0_0.cut_fill _ _ _
  isplitl [H0]
  · iexists d0
    change _ ⊢ owns (c : Thread nD τ) (stage0_0 (cfg0.slots t 0)) fullShare
      (win0_0.fill (grid0.coords t) d0 (win0_0.cut (grid0.coords t) (featBlock m c t)))
    rw [hx]; try iexact H0
  isplitl [H1]; · iexact H1
  isplitl [H2]; · iexact H2
  isplitl [H3]; · iexact H3
  isplitl [H4]; · iexact H4
  isplitl [H5]; · iexact H5
  isplitl [H6]; · iexact H6
  iexists k0_pay1 (F := Ideal) (win0_0.fill (grid0.coords t) d0 (iblk m c 0 t)) (iblk m c 1 t) (iblk m c 2 t) (iblk m c 3 t)
    (iblk m c 4 t) (iblk m c 5 t) (iblk m c 6 t)
  change _ ⊢ owns (c : Thread nD τ) (stage0_7 (cfg0.slots t 7)) fullShare
    (win0_7.fill (grid0.coords t) (k0_pay1 (F := Ideal) (win0_0.fill (grid0.coords t) d0 (iblk m c 0 t)) (iblk m c 1 t) (iblk m c 2 t)
      (iblk m c 3 t) (iblk m c 4 t) (iblk m c 5 t) (iblk m c 6 t)) (win0_7.cut (grid0.coords t) (outBlock m c t)))
  rw [win0_7.fill_congr_cut (grid0.coords t) (cut_row m c t d0)]; try iexact H7

/-- The library's body obligation, at every point. -/
theorem body_obligationI (c : Dev nD) :
    BodyObligationLoose (datsI m 0 c) (defs₀ (F := Ideal)) Variants.none () Set.univ := fun t => by
  rw [bigSep_W0, bigSep_W0]
  exact sound_bodyI m c t

/-! ## The run and the frame -/

set_option backward.isDefEq.respectTransparency.types false in
/-- Every weakly fair execution of @main terminates; at the end every array of the pipeline holds what the library
    computes from the proof data and every other unscoped buffer what the line after the region leaves in it. -/
theorem run_mainI : θ_run defs (onTc (τ := τ) (main (F := Ideal))) (s₀ m ρ)
    (Pipeline.FramePost cfgs (datsI m) 0 (Pipeline.afterTail₀ cfgs (datsI m) 0 (V0 m) [hostOps1])) :=
  Pipeline.θ_run_frame_around cfgs (datsI m) (0 : Fin 1) launch0 defs₀ Variants.none m ρ main
    (hbody := body_obligationI m) (hshare := fun c => (datsI m 0 c).share_full fun _ => rfl) (howed := fun _ _ => rfl)
    (V₀ := V0 m) (opss := [hostOps1]) (hsub := sfx_sub) (hfresh := sfx_fresh) (hkeep := sfx_keeps)
    (hmain := hmain m Variants.none) (hA := AI_eq m) (hΦ := fun _ _ => rfl)

end Cert.KernelIdeal.Body

end
-- ==== Proof.IdealValue.lean ====
/-
  What the idealized kernel's result holds at the end: the three-layer function of every feature row.

  Point `t` of the grid writes back columns `12800·t …` of the output row, as many as lie inside the row; column `q` of
  its block is the three layers on row `q` of its feature block, which on a row inside the array is row `12800·t + q` of
  the features. The six weight and bias windows hold their whole arrays at every point. So every point writes back its
  block of one function of the arrays, the blocks cover the output row, and the row ends holding that function; the
  line after the region transposes the row into the one-column result. The three weight matrices reach the region
  through a change of format, which over the extended reals changes nothing.
-/
import proofs.«424887_j15616501088726_3_alg».proof.Proof.IdealRun
import Idealize.ShloMosaic.Lib.StableHlo.Run
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps over the grid -/

/-- The output's block index is `(0, t)` and the features' `(t, 0)`; the output block keeps its one row and, of its
    12,800 columns, those inside the 100,000-column row. -/
theorem grid_facts : ∀ t : Fin cfg0.N,
    win0_7.index t 0 = 0 ∧ win0_7.index t 1 = t.val ∧ win0_0.index t 0 = t.val ∧ win0_0.index t 1 = 0
    ∧ win0_7.xsize (grid0.coords t) 0 = 1 ∧ win0_7.xsize (grid0.coords t) 1 = min 12800 (100000 - 12800 * t.val) :=
  (by decide +kernel : ∀ t : Fin grid0.N,
    win0_7.index t 0 = 0 ∧ win0_7.index t 1 = t.val ∧ win0_0.index t 0 = t.val ∧ win0_0.index t 1 = 0
    ∧ win0_7.xsize (grid0.coords t) 0 = 1 ∧ win0_7.xsize (grid0.coords t) 1 = min 12800 (100000 - 12800 * t.val))

/-- The six kept windows' block index is zero on every axis: their block is their array. -/
theorem kept_facts : ∀ t : Fin cfg0.N,
    win0_1.index t 0 = 0 ∧ win0_1.index t 1 = 0 ∧ win0_2.index t 0 = 0 ∧ win0_3.index t 0 = 0 ∧ win0_3.index t 1 = 0
    ∧ win0_4.index t 0 = 0 ∧ win0_5.index t 0 = 0 ∧ win0_5.index t 1 = 0 ∧ win0_6.index t 0 = 0 :=
  (by decide +kernel : ∀ t : Fin grid0.N,
    win0_1.index t 0 = 0 ∧ win0_1.index t 1 = 0 ∧ win0_2.index t 0 = 0 ∧ win0_3.index t 0 = 0 ∧ win0_3.index t 1 = 0
    ∧ win0_4.index t 0 = 0 ∧ win0_5.index t 0 = 0 ∧ win0_5.index t 1 = 0 ∧ win0_6.index t 0 = 0)

/-! ## The kept windows' blocks are their arrays -/

theorem blk_1 (c : Dev nD) (t : Fin cfg0.N) : (iblk m c 1 t : S64x12.Idx → EReal) = V m c main_v0 := by
  obtain ⟨e0, e1, -⟩ := kept_facts t
  funext y
  show V m c main_v0 (((cfg0.win 1).blk t).view.emb y) = V m c main_v0 y
  congr 1; funext a; apply Fin.ext
  match a with
  | ⟨0, _⟩ => show win0_1.index t (0 : Fin 2) * 64 + 1 * (y 0).val = (y 0).val; omega
  | ⟨1, _⟩ => show win0_1.index t (1 : Fin 2) * 12 + 1 * (y 1).val = (y 1).val; omega

theorem blk_2 (c : Dev nD) (t : Fin cfg0.N) : (iblk m c 2 t : S64.Idx → EReal) = V m c main_arg10 := by
  obtain ⟨-, -, e0, -⟩ := kept_facts t
  funext y
  show V m c main_arg10 (((cfg0.win 2).blk t).view.emb y) = V m c main_arg10 y
  congr 1; funext a; apply Fin.ext
  match a with
  | ⟨0, _⟩ => show win0_2.index t (0 : Fin 1) * 64 + 1 * (y 0).val = (y 0).val; omega

theorem blk_3 (c : Dev nD) (t : Fin cfg0.N) : (iblk m c 3 t : S64x64.Idx → EReal) = V m c main_v1 := by
  obtain ⟨-, -, -, e0, e1, -⟩ := kept_facts t
  funext y
  show V m c main_v1 (((cfg0.win 3).blk t).view.emb y) = V m c main_v1 y
  congr 1; funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk_4 (c : Dev nD) (t : Fin cfg0.N) : (iblk m c 4 t : S64.Idx → EReal) = V m c main_arg12 := by
  obtain ⟨-, -, -, -, -, e0, -⟩ := kept_facts t
  funext y
  show V m c main_arg12 (((cfg0.win 4).blk t).view.emb y) = V m c main_arg12 y
  congr 1; funext a; apply Fin.ext
  match a with
  | ⟨0, _⟩ => show win0_4.index t (0 : Fin 1) * 64 + 1 * (y 0).val = (y 0).val; omega

theorem blk_5 (c : Dev nD) (t : Fin cfg0.N) : (iblk m c 5 t : S1x64.Idx → EReal) = V m c main_v2 := by
  obtain ⟨-, -, -, -, -, -, e0, e1, -⟩ := kept_facts t
  funext y
  show V m c main_v2 (((cfg0.win 5).blk t).view.emb y) = V m c main_v2 y
  congr 1; funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem blk_6 (c : Dev nD) (t : Fin cfg0.N) : (iblk m c 6 t : S1.Idx → EReal) = V m c main_arg14 := by
  obtain ⟨-, -, -, -, -, -, -, -, e0⟩ := kept_facts t
  funext y
  show V m c main_arg14 (((cfg0.win 6).blk t).view.emb y) = V m c main_arg14 y
  congr 1; funext a; apply Fin.ext
  match a with
  | ⟨0, _⟩ => show win0_6.index t (0 : Fin 1) * 1 + 1 * (y 0).val = (y 0).val; omega

/-! ## The output row at the end -/

/-- Column `r` of the output row at the end: the three layers, over the arrays as the region finds them, on feature
    row `r`. -/
def finalRow (c : Dev nD) : S1x100000.Idx → EReal := fun i =>
  Cert.Mlp.row (V m c main_v0) (V m c main_arg10) (V m c main_v1) (V m c main_arg12) (V m c main_v2) (V m c main_arg14)
    (fun k => V m c main_arg2 (ix2 (⟨(i 1).val, (i 1).isLt⟩ : Fin 100000) k))

/-- What point `t` writes back is its block of that row. -/
theorem flushed_eq (c : Dev nD) (t : Fin cfg0.N) :
    (datsI m 0 c).flushed 7 t = ((cfg0.win 7).blk t).view.read (Elt Ideal) (finalRow m c) := by
  obtain ⟨h70, h71, h00, h01, x70, x71⟩ := grid_facts t
  funext y
  have hj : (y 1).val < win0_0.xsize (grid0.coords t) 0 := by rw [← (cuts_agree t).1]; exact (y 1).isLt
  have hq : (y 1).val < 12800 := Nat.lt_of_lt_of_le (y 1).isLt (win0_7.xsize_le (grid0.coords t) 1)
  have h1 : (y 0).val < 1 := Nat.lt_of_lt_of_le (y 0).isLt (win0_7.xsize_le (grid0.coords t) 0)
  have e : win0_7.xinj (grid0.coords t) y = ix2 (0 : Fin 1) (⟨(y 1).val, hq⟩ : Fin 12800) := funext fun a => Fin.ext (by
    match a with
    | ⟨0, _⟩ => show (y 0).val = 0; omega
    | ⟨1, _⟩ => rfl)
  show (datsI m 0 c).after 7 t (win0_7.xinj (grid0.coords t) y) = finalRow m c (((cfg0.win 7).blk t).view.emb y)
  rw [afterI_7]
  unfold outBlock finalRow
  rw [e, Payload.pay_apply, blk_1, blk_2, blk_3, blk_4, blk_5, blk_6]
  congr 1
  funext k
  unfold featBlock
  rw [fill_row m c t _ ⟨(y 1).val, hq⟩ hj k]
  show V m c main_arg2 (((cfg0.win 0).blk t).view.emb _) = V m c main_arg2 _
  congr 1; funext a; apply Fin.ext
  match a with
  | ⟨0, _⟩ =>
    show win0_0.index t (0 : Fin 2) * 12800 + 1 * (y 1).val = win0_7.index t (1 : Fin 2) * 12800 + 1 * (y 1).val
    omega
  | ⟨1, _⟩ => show win0_0.index t (1 : Fin 2) * 12 + 1 * k.val = k.val; omega

/-- Every column of the output row lies in the block of the point `column / 12800`. -/
theorem covered (i : S1x100000.Idx) :
    ∃ t : Fin cfg0.N, (cfg0.win 7).flush t = true ∧ i ∈ ((cfg0.win 7).blk t).view.set := by
  have hi : (i 1).val < 100000 := (i 1).isLt
  have hi0 : (i 0).val < 1 := (i 0).isLt
  have hN : cfg0.N = 8 := N_0
  have ht : (i 1).val / 12800 < cfg0.N := by rw [hN]; omega
  obtain ⟨h70, h71, -, -, x70, x71⟩ := grid_facts ⟨(i 1).val / 12800, ht⟩
  refine ⟨⟨(i 1).val / 12800, ht⟩, flush0_7 _, ?_⟩
  show i ∈ ((View.whole main_v3).slice (win0_7.rect ⟨(i 1).val / 12800, ht⟩)).set
  rw [View.set_slice_whole, Rect.mem_set_unit]
  intro a
  match a with
  | ⟨0, _⟩ =>
    show win0_7.index ⟨(i 1).val / 12800, ht⟩ (0 : Fin 2) * 1 ≤ (i 0).val
      ∧ (i 0).val < win0_7.index ⟨(i 1).val / 12800, ht⟩ (0 : Fin 2) * 1 + win0_7.xsize (grid0.coords ⟨(i 1).val / 12800, ht⟩) (0 : Fin 2)
    rw [h70, x70]; omega
  | ⟨1, _⟩ =>
    show win0_7.index ⟨(i 1).val / 12800, ht⟩ (1 : Fin 2) * 12800 ≤ (i 1).val
      ∧ (i 1).val < win0_7.index ⟨(i 1).val / 12800, ht⟩ (1 : Fin 2) * 12800 + win0_7.xsize (grid0.coords ⟨(i 1).val / 12800, ht⟩) (1 : Fin 2)
    rw [h71, x71]
    show (i 1).val / 12800 * 12800 ≤ (i 1).val ∧ (i 1).val < (i 1).val / 12800 * 12800 + min 12800 (100000 - 12800 * ((i 1).val / 12800))
    omega

/-- So the output row ends holding `finalRow`. -/
theorem final_row (c : Dev nD) : (datsI m 0 c).arrAt 7 cfg0.N = finalRow m c :=
  (datsI m 0 c).arrAt_eq_of_cover 7 (finalRow m c) (fun t _ => flushed_eq m c t) (covered)

end Cert.KernelIdeal.Body

end
-- ==== Proof.IdealResult.lean ====
/-
  The idealized kernel's run, read at the result and the arguments.

  The three weight matrices reach the region through a change of format, the identity over the extended reals, so the
  arrays the region finds are the arguments. The line after the region transposes the output row into the result, so
  entry `(r, 0)` of the result is column `r` of the row: the three layers, over the arguments, on feature row `r`.
  The arguments end as launched: those the pipeline stages are input arrays of it, the others pass it by, and neither
  the format changes before the region nor the transposition after it writes any of them.
-/
import proofs.«424887_j15616501088726_3_alg».proof.Proof.IdealValue

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The weights as the region finds them -/

theorem V_w1 (c : Dev nD) : (V m c main_v0 : S64x12.Idx → EReal) = m ((c : Thread nD τ).loc main_arg9) := by
  show StableHlo.after hostOps0 (fun b => m (c, b)) (Proc.devRef .tc main_v0) = _
  after_results
  rfl

theorem V_w2 (c : Dev nD) : (V m c main_v1 : S64x64.Idx → EReal) = m ((c : Thread nD τ).loc main_arg11) := by
  show StableHlo.after hostOps0 (fun b => m (c, b)) (Proc.devRef .tc main_v1) = _
  after_results
  rfl

theorem V_w3 (c : Dev nD) : (V m c main_v2 : S1x64.Idx → EReal) = m ((c : Thread nD τ).loc main_arg13) := by
  show StableHlo.after hostOps0 (fun b => m (c, b)) (Proc.devRef .tc main_v2) = _
  after_results
  rfl

/-! ## The result -/

/-- The result's buffer after the line that follows the region: the output row, transposed. -/
theorem tail_eq (c : Dev nD) :
    (Pipeline.afterTail₀ cfgs (datsI m) 0 (V0 m) [hostOps1] c main_v4 : S100000x1.Idx → EReal)
      = transpose S100000x1 [1, 0] (finalRow m c) Facts₀.transposes_S1x100000_S100000x1_1_0 := by
  unfold Pipeline.afterTail₀
  show StableHlo.after hostOps1 _ (Proc.devRef .tc main_v4) = _
  after_results
  rw [Pipeline.withArrays_arr spec0 launch0.win.arr_inj c _ _ 7, final_row]

/-- Which is the three-layer function of the arguments. -/
theorem result_eq (c : Dev nD) :
    (Pipeline.afterTail₀ cfgs (datsI m) 0 (V0 m) [hostOps1] c main_v4 : S100000x1.Idx → EReal)
      = Cert.Mlp.out (m ((c : Thread nD τ).loc main_arg2)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  rw [tail_eq]
  funext i
  obtain ⟨r, z, rfl⟩ : ∃ (r : Fin 100000) (z : Fin 1), i = ix2 r z := ⟨i 0, i 1, eq_ix2 i⟩
  rw [transpose_ix2_apply]
  unfold finalRow Cert.Mlp.out
  rw [V_w1, V_w2, V_w3, V_main_arg2, V_main_arg10, V_main_arg12, V_main_arg14]

/-! ## The run -/

/-- Every weakly fair execution of the idealized kernel's @main terminates; the result ends at the three-layer
    function of the arguments and the fifteen arguments end as launched. -/
theorem run_value : θ_run defs (onTc (τ := τ) (main (F := Ideal))) ⟨m, fun _ => 0, ρ⟩ (fun r => ∀ c : Dev nD,
      r.2.mem ((c.tc : Thread nD τ).loc main_v4)
        = Cert.Mlp.out (m ((c : Thread nD τ).loc main_arg2)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    have rest : ∀ b : Ref sig .tc, b.isScoped = false → (∀ w, ((cfg0.spec w).arr.view.ref ≠ b)) →
        _ = Pipeline.afterTail₀ cfgs (datsI m) 0 (V0 m) [hostOps1] c b :=
      fun b hs ha => (h c).2 b (Pipeline.mem_restRefs_of b hs ha)
    have staged : ∀ w : Fin cfg0.W, (cfg0.win w).isOut = false → _ = V m c (Pipeline.arrRef spec0 w) :=
      fun w hw => ((h c).1 w).trans (((datsI m 0 c).arrAt_in w hw _).trans (AI_eq m c w))
    ⟨(rest main_v4 (by decide) (by decide)).trans (result_eq m c),
      (rest main_arg0 (by decide) (by decide)).trans (W_main_arg0 m (datsI m) c),
      (rest main_arg1 (by decide) (by decide)).trans (W_main_arg1 m (datsI m) c),
      (staged 0 rfl).trans (V_main_arg2 m c),
      (rest main_arg3 (by decide) (by decide)).trans (W_main_arg3 m (datsI m) c),
      (rest main_arg4 (by decide) (by decide)).trans (W_main_arg4 m (datsI m) c),
      (rest main_arg5 (by decide) (by decide)).trans (W_main_arg5 m (datsI m) c),
      (rest main_arg6 (by decide) (by decide)).trans (W_main_arg6 m (datsI m) c),
      (rest main_arg7 (by decide) (by decide)).trans (W_main_arg7 m (datsI m) c),
      (rest main_arg8 (by decide) (by decide)).trans (W_main_arg8 m (datsI m) c),
      (rest main_arg9 (by decide) (by decide)).trans (W_main_arg9 m (datsI m) c),
      (staged 2 rfl).trans (V_main_arg10 m c),
      (rest main_arg11 (by decide) (by decide)).trans (W_main_arg11 m (datsI m) c),
      (staged 4 rfl).trans (V_main_arg12 m c),
      (rest main_arg13 (by decide) (by decide)).trans (W_main_arg13 m (datsI m) c),
      (staged 6 rfl).trans (V_main_arg14 m c)⟩) (run_mainI m ρ)

end Cert.KernelIdeal.Body

end
-- ==== Proof.RefValue.lean ====
/-
  The reference program's result is the three-layer function of `Cert.Mlp`, row by row.

  Each layer of the reference is a product of the activations with the transposed weights, plus the bias broadcast over
  the rows, and (for the first two layers) the maximum with the zero word. Read at row `r` and unit `h`, the product is
  `∑ k, a (r, k) · w (h, k)`; commuting each term puts the weight first, which is the dense unit of `Cert.Mlp`.
-/
import proofs.«424887_j15616501088726_3_alg».proof.Proof.Gen.ReferenceIdeal.Read
import proofs.«424887_j15616501088726_3_alg».proof.Proof.Mlp

noncomputable section

open scoped BigOperators

namespace Cert.ReferenceIdeal.RefValue

open Cert.ReferenceIdeal Cert.ReferenceIdeal.Gen Cert.ReferenceIdeal.Read Idealize.ShloMosaic Idealize.ShloMosaic.ValueIdx

/-- Layer one at row `r`, unit `h`: the reference's transposed product plus the broadcast bias, ramped, is the dense
    unit of the row; each product is commuted to put the weight first. -/
theorem layer1 (x2 : (⟨S100000x12, .f32⟩ : BufTy).Contents (Elt Ideal)) (x9 : (⟨S64x12, .f32⟩ : BufTy).Contents (Elt Ideal))
    (x10 : (⟨S64, .f32⟩ : BufTy).Contents (Elt Ideal)) (r : Fin 100000) (h : Fin 64) :
    val_main_v73 (F := Ideal) x2 x9 x10 (ix2 r h)
      = Cert.Mlp.ramp (Cert.Mlp.dense x9 x10 (fun j => x2 (ix2 r j)) h) := by
  rw [val_main_v73_apply, val_main_v72_apply, val_main_v69_apply, val_main_v71_apply, val_main_v70_apply,
    val_main_call4_v0_apply, val_main_call4_cst_apply]
  unfold Cert.Mlp.ramp Cert.Mlp.dense Cert.Mlp.zeroWord
  congr 2
  · refine Finset.sum_congr rfl fun k _ => ?_
    rw [val_main_v68_apply, mul_comm]
    have e1 : idx_main_v68 (ridx_main_v69 (ix2 r h) k) = ix2 h k := by
      funext a; match a with | ⟨0, _⟩ => rfl | ⟨1, _⟩ => rfl
    have e2 : lidx_main_v69 (ix2 r h) k = ix2 r k := by
      funext a; match a with | ⟨0, _⟩ => rfl | ⟨1, _⟩ => rfl
    rw [e1, e2]
  · have e3 : idx_main_v70 (idx_main_v71 (ix2 r h)) = ix1 h := by
      funext a; match a with | ⟨0, _⟩ => rfl
    rw [e3]

/-- Layer two at row `r`, unit `h`, over any description `g` of layer one's row. -/
theorem layer2 (x2 : (⟨S100000x12, .f32⟩ : BufTy).Contents (Elt Ideal)) (x9 : (⟨S64x12, .f32⟩ : BufTy).Contents (Elt Ideal))
    (x10 : (⟨S64, .f32⟩ : BufTy).Contents (Elt Ideal)) (x11 : (⟨S64x64, .f32⟩ : BufTy).Contents (Elt Ideal))
    (x12 : (⟨S64, .f32⟩ : BufTy).Contents (Elt Ideal)) (r : Fin 100000) (h : Fin 64) (g : Fin 64 → EReal)
    (hg : ∀ k : Fin 64, val_main_v73 (F := Ideal) x2 x9 x10 (ix2 r k) = g k) :
    val_main_v79 (F := Ideal) x2 x9 x10 x11 x12 (ix2 r h) = Cert.Mlp.ramp (Cert.Mlp.dense x11 x12 g h) := by
  rw [val_main_v79_apply, val_main_v78_apply, val_main_v75_apply, val_main_v77_apply, val_main_v76_apply,
    val_main_call5_v0_apply, val_main_call5_cst_apply]
  unfold Cert.Mlp.ramp Cert.Mlp.dense Cert.Mlp.zeroWord
  congr 2
  · refine Finset.sum_congr rfl fun k _ => ?_
    rw [val_main_v74_apply, mul_comm, ← hg k]
    have e1 : idx_main_v74 (ridx_main_v75 (ix2 r h) k) = ix2 h k := by
      funext a; match a with | ⟨0, _⟩ => rfl | ⟨1, _⟩ => rfl
    have e2 : lidx_main_v75 (ix2 r h) k = ix2 r k := by
      funext a; match a with | ⟨0, _⟩ => rfl | ⟨1, _⟩ => rfl
    rw [e1, e2]
  · have e3 : idx_main_v76 (idx_main_v77 (ix2 r h)) = ix1 h := by
      funext a; match a with | ⟨0, _⟩ => rfl
    rw [e3]

/-- Layer three at row `r` (one unit, no ramp), over any description `g` of layer two's row. -/
theorem layer3 (x2 : (⟨S100000x12, .f32⟩ : BufTy).Contents (Elt Ideal)) (x9 : (⟨S64x12, .f32⟩ : BufTy).Contents (Elt Ideal))
    (x10 : (⟨S64, .f32⟩ : BufTy).Contents (Elt Ideal)) (x11 : (⟨S64x64, .f32⟩ : BufTy).Contents (Elt Ideal))
    (x12 : (⟨S64, .f32⟩ : BufTy).Contents (Elt Ideal)) (x13 : (⟨S1x64, .f32⟩ : BufTy).Contents (Elt Ideal))
    (x14 : (⟨S1, .f32⟩ : BufTy).Contents (Elt Ideal)) (r : Fin 100000) (z : Fin 1) (g : Fin 64 → EReal)
    (hg : ∀ k : Fin 64, val_main_v79 (F := Ideal) x2 x9 x10 x11 x12 (ix2 r k) = g k) :
    val_main_v84 (F := Ideal) x2 x9 x10 x11 x12 x13 x14 (ix2 r z) = Cert.Mlp.dense x13 x14 g 0 := by
  obtain rfl : z = 0 := Subsingleton.elim _ _
  rw [val_main_v84_apply, val_main_v81_apply, val_main_v83_apply, val_main_v82_apply]
  unfold Cert.Mlp.dense
  congr 1
  · refine Finset.sum_congr rfl fun k _ => ?_
    rw [val_main_v80_apply, mul_comm, ← hg k]
    have e1 : idx_main_v80 (ridx_main_v81 (ix2 r (0 : Fin 1)) k) = ix2 (0 : Fin 1) k := by
      funext a; match a with | ⟨0, _⟩ => rfl | ⟨1, _⟩ => rfl
    have e2 : lidx_main_v81 (ix2 r (0 : Fin 1)) k = ix2 r k := by
      funext a; match a with | ⟨0, _⟩ => rfl | ⟨1, _⟩ => rfl
    rw [e1, e2]
  · have e3 : idx_main_v82 (idx_main_v83 (ix2 r (0 : Fin 1))) = ix1 (0 : Fin 1) := by
      funext a; match a with | ⟨0, _⟩ => rfl
    rw [e3]

/-- The reference's result stage is `Cert.Mlp.out`: at row `r` (the one column has a single index) the three layers
    compose. -/
theorem ref_eq (x2 : (⟨S100000x12, .f32⟩ : BufTy).Contents (Elt Ideal)) (x9 : (⟨S64x12, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S1x64, .f32⟩ : BufTy).Contents (Elt Ideal)) (x14 : (⟨S1, .f32⟩ : BufTy).Contents (Elt Ideal)) :
    val_main_v84 (F := Ideal) x2 x9 x10 x11 x12 x13 x14 = Cert.Mlp.out x2 x9 x10 x11 x12 x13 x14 := by
  funext i
  obtain ⟨r, z, rfl⟩ : ∃ (r : Fin 100000) (z : Fin 1), i = ix2 r z := ⟨i 0, i 1, eq_ix2 i⟩
  show val_main_v84 (F := Ideal) x2 x9 x10 x11 x12 x13 x14 (ix2 r z)
    = Cert.Mlp.dense x13 x14 (fun h2 => Cert.Mlp.ramp (Cert.Mlp.dense x11 x12
        (fun h1 => Cert.Mlp.ramp (Cert.Mlp.dense x9 x10 (fun j => x2 (ix2 r j)) h1)) h2)) 0
  exact layer3 x2 x9 x10 x11 x12 x13 x14 r z _
    (fun k => layer2 x2 x9 x10 x11 x12 r k _ (fun j => layer1 x2 x9 x10 r j))

end Cert.ReferenceIdeal.RefValue

end
-- ==== Proof.lean ====
/-
  The certificate of a three-layer perceptron over 100,000 rows of twelve features.

  The kernel streams the feature rows through a pipeline of eight grid points, 12,800 rows a block, and at each point
  computes, transposed, one row of 12,800 outputs: two dense layers of sixty-four units with a ramp and one output unit,
  the weights read through a narrowing to a 16-bit format. The reference computes the same three layers on the host over
  the whole array (after a graph network whose result it discards, as the kernel omits). Over the extended reals the
  narrowing is the identity, a matrix product into a zero accumulator is the host's product, and the two differ only in
  the order of the factors under each sum and in the transposition; both results are `Cert.Mlp.out` of the arguments.

  The last block of the features and of the output runs past the array's end. What the staging buffers hold there is
  not named by the model; a column of the output block depends on the same row of the feature block only, so those
  words reach only columns that are never written back. For the word-level program nothing is claimed of the output,
  and its frame is proved with the two clipped windows' buffers left at unnamed contents.

  The conjuncts: the word-level kernel's frame (`Cert.Kernel.Body.frame`), the idealized kernel's frame and value
  (`Cert.KernelIdeal.Body.run_value`), the reference's frame and value (its run), the empty ledger, and the equality of
  the two results (`Cert.ReferenceIdeal.RefValue.ref_eq`).
-/
import proofs.«424887_j15616501088726_3_alg».proof.Defs
import proofs.«424887_j15616501088726_3_alg».proof.Proof.Gen.Kernel
import proofs.«424887_j15616501088726_3_alg».proof.Proof.Gen.KernelIdeal
import proofs.«424887_j15616501088726_3_alg».proof.Proof.Gen.ReferenceIdeal
import proofs.«424887_j15616501088726_3_alg».proof.Proof.Gen.Pre_finite_inputs
import proofs.«424887_j15616501088726_3_alg».proof.Proof.Gen.ReferenceIdeal.Run
import proofs.«424887_j15616501088726_3_alg».proof.Proof.Gen.ReferenceIdeal.Read
import proofs.«424887_j15616501088726_3_alg».proof.Proof.KernelFrame
import proofs.«424887_j15616501088726_3_alg».proof.Proof.IdealResult
import proofs.«424887_j15616501088726_3_alg».proof.Proof.RefValue
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Body.frame (F := Bits) m ρ

/-- So does the idealized kernel: its run with the result dropped. -/
theorem frame_kernelIdeal : Cert.frame_KernelIdeal := fun m ρ _ =>
  (θ_run Cert.KernelIdeal.defs _ _).mono (fun _ h c => (h c).2) (Cert.KernelIdeal.Body.run_value m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the three-layer function of the arguments in
    their result, and with their arguments as launched. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.ReferenceIdeal.RefValue.ref_eq]
  obtain ⟨-, -, h2, -, -, -, -, -, -, h9, h10, h11, h12, h13, h14⟩ := hagree c
  rw [h2, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
